-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S8192x4096 .f32) (main_arg1 : FVec F S4096x4096 .f32) (main_arg2 : FVec F S4096 .f32) (main_arg3 : FVec F S16x4096 .f32) (main_arg4 : FVec F S4096x16 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S_ : Shape := ⟨0, ![]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 15
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S8192x4096, .bf16⟩
  | .hbm, ⟨13, _⟩ => ⟨S1x4096, .f32⟩
  | .hbm, ⟨14, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S4096x4096_S4096x4096_1_0 : S4096x4096.Transposes [1, 0] S4096x4096
  bcast_S_S4096x4096 : S_.BroadcastsInDim S4096x4096 (![] : Fin 0 → Fin S4096x4096.rank)
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S4096x16_S16x4096_S4096x4096_1_0_0_1_n_n_wf : DotDims.WF S4096x16 S16x4096 S4096x4096 [1] [0] [0] [1] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v6) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S16x4096 : Shape := ⟨2, ![16, 4096]⟩
abbrev S4096x16 : Shape := ⟨2, ![4096, 16]⟩
abbrev S1x4096 : Shape := ⟨2, ![1, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S16x4096, .f32⟩
  | .hbm, ⟨4, _⟩ => ⟨S4096x16, .f32⟩
  | .hbm, ⟨5, _⟩ => ⟨S4096x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S8192x4096, .f32⟩
  | .hbm, ⟨10, _⟩ => ⟨S4096x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x4096_S4096x4096_S8192x4096_1_0_0_1_n_n_wf : DotDims.WF S8192x4096 S4096x4096 S8192x4096 [1] [0] [0] [1] [] []
  dot_S4096x16_S16x4096_S4096x4096_1_0_0_1_n_n_wf : DotDims.WF S4096x16 S16x4096 S4096x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf
def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf

class Facts : Prop extends Facts₀ where

variable [Facts]
-- ==== Proof.FoundPieces.lean ====
/-
  What one grid point leaves behind, as a value.  The body keeps a running block in a scratch buffer across the
  four points that share an output block.  At the first of the four it stores the zero block, reads it back and
  stores  0 + x·m  (x, m the point's blocks of the two matrix operands); at the next ones it stores  acc + x·m
  over what the point before left (acc); at the last it also stores  (acc + x·m) + bias  into the output block.
  Each buffer's final contents is the payload of the last whole-buffer store into it, its loads reading whole
  buffers: the scratch read back after a store in the same point reads that store's payload.
-/
import proofs.«125569_j13056700580108_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Found

open Cert.KernelIdeal Cert.KernelIdeal.Gen

variable {F : FTy → Type} [FloatOps F]

theorem hz : (![0, 0] : Fin 2 → Nat) = fun _ => 0 := funext fun a => by fin_cases a <;> rfl

/-- A middle point leaves  acc + x·m  in the scratch. -/
theorem scratch_mid (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .bf16) (x1 : Vec F S1024x1024 .bf16) (x2 : Vec F S1x1024 .f32) (xs0 : Vec F S1024x1024 .f32) :
    sout0_B_0 c i arg3 harg3 arg4 harg4 arg5 harg5 arg6 harg6 arg7 harg7 hc0 hc1 x0 x1 x2 xs0 = k0_pay2 xs0 x0 x1 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg7.read_unread, harg3.read_unread, harg4.read_unread, View.ld_unit_zero (S := S1024x1024) hz]

/-- The first point of four leaves  0 + x·m  in the scratch: the zero block it has just stored, read back. -/
theorem scratch_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .bf16) (x1 : Vec F S1024x1024 .bf16) (x2 : Vec F S1x1024 .f32) :
    sout0_A_0 c i arg3 harg3 arg4 harg4 arg5 harg5 arg6 harg6 arg7 harg7 hc0 hc1 x0 x1 x2 = k0_pay2 (k0_pay1 (F := F)) x0 x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- The last point of four leaves  (acc + x·m) + bias  in the output block: the running block it has just stored,
    read back, plus the bias row on every row. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .bf16) (x1 : Vec F S1024x1024 .bf16) (x2 : Vec F S1x1024 .f32) (xs0 : Vec F S1024x1024 .f32) :
    out0_C_3 c i arg3 harg3 arg4 harg4 arg5 harg5 arg6 harg6 arg7 harg7 hc0 hc1 x0 x1 x2 xs0 = k0_pay3 (k0_pay2 xs0 x0 x1) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz, View.readCov_unit_zero (S := S1024x1024) _ hz]
  simp only [View.readAt_eq_ld, harg7.read_unread, harg3.read_unread, harg4.read_unread, harg5.read_unread,
    View.ld_unit_zero (S := S1024x1024) hz, View.ld_unit_zero (S := S1x1024) hz]

end Cert.KernelIdeal.Found

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.FoldAlgebra.lean ====
/-
  The arithmetic that joins the two programs, one output entry at a time, over the extended reals.

  With x a row of the activations, w a row of the base weight, c the column of the low-rank product B·A met by
  that row, s the scaling and β the bias, the kernel forms  Σᵢ xᵢ·(wᵢ + s·cᵢ) + β  (one product against the
  folded matrix, its contraction cut into four consecutive stretches added in order to a zero start), and the
  reference forms  (Σᵢ xᵢ·wᵢ + β) + s·Σᵢ xᵢ·cᵢ.  Cutting a finite sum into consecutive stretches and adding them
  in order is free in any commutative monoid.  Moving the factor xᵢ across the inner sum and s across the outer
  one is distributivity, which the extended reals have only away from the infinities: there every entry is taken
  to be a real number, the two sides are computed in ℝ, and the inclusion of ℝ carries the equation back.
-/
import Idealize.ShloMosaic.PureOps.Ideal

noncomputable section

open scoped BigOperators

namespace Cert.LoraFold

open Idealize.ShloMosaic

/-- The inclusion of the reals in the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The word of `2.0` denotes the real number two. -/
theorem ofBits_two : Ideal.ofBits .f32 0x40000000#32 = ((2 : ℝ) : EReal) := by
  simp [Ideal.ofBits, Ideal.ieee, -EReal.coe_mul]; norm_num

/-- The word of `+0.0` denotes zero. -/
theorem ofBits_zero : Ideal.ofBits .f32 0x00000000#32 = (0 : EReal) := by
  simp [Ideal.ofBits, Ideal.ieee]

/-- ONE ENTRY, over the reals: the product against the folded matrix plus the bias is the base product plus the
    bias plus the scaled low-rank product. -/
theorem fold_entry_real {ι ρ : Type} [Fintype ι] [Fintype ρ] (x w : ι → ℝ) (B : ι → ρ → ℝ) (A : ρ → ℝ) (β s : ℝ) :
    (∑ i, x i * (w i + s * ∑ r, B i r * A r)) + β
      = ((∑ i, x i * w i) + β) + s * ∑ i, x i * ∑ r, B i r * A r := by
  have h : ∀ i, x i * (w i + s * ∑ r, B i r * A r) = x i * w i + s * (x i * ∑ r, B i r * A r) := fun i => by ring
  simp only [h, Finset.sum_add_distrib, ← Finset.mul_sum]
  ring

/-- ONE ENTRY, over the extended reals, every operand a real number. -/
theorem fold_entry {ι ρ : Type} [Fintype ι] [Fintype ρ] (x w : ι → ℝ) (B : ι → ρ → ℝ) (A : ρ → ℝ) (β s : ℝ) :
    (∑ i, (x i : EReal) * ((w i : EReal) + (s : EReal) * ∑ r, (B i r : EReal) * (A r : EReal))) + (β : EReal)
      = ((∑ i, (x i : EReal) * (w i : EReal)) + (β : EReal))
        + (s : EReal) * ∑ i, (x i : EReal) * ∑ r, (B i r : EReal) * (A r : EReal) := by
  have e := congrArg (fun r : ℝ => (r : EReal)) (fold_entry_real x w B A β s)
  simp only [EReal.coe_add, EReal.coe_mul, coe_sum] at e
  exact e

/-- A sum over 4096 consecutive positions is its four stretches of 1024 added in order to a zero start. -/
theorem sum_four_stretches {M : Type} [AddCommMonoid M] (f : Fin 4096 → M) :
    ((((0 + ∑ l : Fin 1024, f ⟨1024 * 0 + l.val, by omega⟩) + ∑ l : Fin 1024, f ⟨1024 * 1 + l.val, by omega⟩)
        + ∑ l : Fin 1024, f ⟨1024 * 2 + l.val, by omega⟩) + ∑ l : Fin 1024, f ⟨1024 * 3 + l.val, by omega⟩)
      = ∑ i : Fin 4096, f i := by
  rw [zero_add]
  have e : ∑ i : Fin 4096, f i = ∑ p : Fin 4 × Fin 1024, f (finProdFinEquiv p) :=
    (Equiv.sum_comp (finProdFinEquiv (m := 4) (n := 1024)) f).symm
  rw [e, Fintype.sum_prod_type, Fin.sum_univ_four]
  rfl

end Cert.LoraFold

end
-- ==== Proof.TwoForms.lean ====
/-
  The two programs as functions of the five argument arrays, one output entry at a time.

  Write x for the activations [8192, 4096], W for the base weight [4096, 4096], b for the bias [4096], A [16, 4096]
  and B [4096, 16] for the low-rank factors, and s for the scaling 2.  The low-rank product has entries
  (B·A)(i, j) = Σᵣ B(i, r)·A(r, j).  The kernel folds the weights first, F(i, j) = W(j, i) + s·(B·A)(i, j), and
  returns  out(t, j) = Σᵢ x(t, i)·F(i, j) + b(j).  The reference keeps the two products apart,
  out(t, j) = (Σᵢ x(t, i)·W(j, i) + b(j)) + s·Σᵢ x(t, i)·(B·A)(i, j).  On arrays of real numbers the two are equal.
-/
import Idealize.ShloMosaic.Lib.ValueIdx
import proofs.«125569_j13056700580108_1_alg».proof.Proof.FoldAlgebra

noncomputable section

open scoped BigOperators

namespace Cert.LoraFold

open Idealize.ShloMosaic Idealize.ShloMosaic.ValueIdx

abbrev ShX : Shape := ⟨2, ![8192, 4096]⟩
abbrev ShW : Shape := ⟨2, ![4096, 4096]⟩
abbrev Shb : Shape := ⟨1, ![4096]⟩
abbrev ShA : Shape := ⟨2, ![16, 4096]⟩
abbrev ShB : Shape := ⟨2, ![4096, 16]⟩

/-- The scaling, as the word both programs spell. -/
abbrev scaling : EReal := Ideal.ofBits .f32 0x40000000#32

/-- Entry (i, j) of the low-rank product B·A. -/
def lowRank (A : ShA.Idx → EReal) (B : ShB.Idx → EReal) (i j : Fin 4096) : EReal :=
  ∑ r : Fin 16, B (ix2 i r) * A (ix2 r j)

/-- Entry (i, j) of the folded weight: the transposed base weight plus the scaled low-rank product. -/
def folded (W : ShW.Idx → EReal) (A : ShA.Idx → EReal) (B : ShB.Idx → EReal) (i j : Fin 4096) : EReal :=
  W (ix2 j i) + scaling * lowRank A B i j

/-- The kernel's entry (t, j): the row of x against the column of the folded weight, plus the bias. -/
def entryFolded (x : ShX.Idx → EReal) (W : ShW.Idx → EReal) (b : Shb.Idx → EReal) (A : ShA.Idx → EReal) (B : ShB.Idx → EReal)
    (t : Fin 8192) (j : Fin 4096) : EReal :=
  (∑ i : Fin 4096, x (ix2 t i) * folded W A B i j) + b (ix1 j)

/-- The reference's entry (t, j): the base product plus the bias, plus the scaled product with B·A. -/
def entryApart (x : ShX.Idx → EReal) (W : ShW.Idx → EReal) (b : Shb.Idx → EReal) (A : ShA.Idx → EReal) (B : ShB.Idx → EReal)
    (t : Fin 8192) (j : Fin 4096) : EReal :=
  ((∑ i : Fin 4096, x (ix2 t i) * W (ix2 j i)) + b (ix1 j)) + scaling * ∑ i : Fin 4096, x (ix2 t i) * lowRank A B i j

/-- The whole result array in the kernel's form. -/
def outFolded (x : ShX.Idx → EReal) (W : ShW.Idx → EReal) (b : Shb.Idx → EReal) (A : ShA.Idx → EReal) (B : ShB.Idx → EReal) :
    ShX.Idx → EReal := fun y => entryFolded x W b A B (y 0) (y 1)

/-- The whole result array in the reference's form. -/
def outApart (x : ShX.Idx → EReal) (W : ShW.Idx → EReal) (b : Shb.Idx → EReal) (A : ShA.Idx → EReal) (B : ShB.Idx → EReal) :
    ShX.Idx → EReal := fun y => entryApart x W b A B (y 0) (y 1)

/-- Every entry of the array is a real number. -/
def AllReal {S : Shape} (v : S.Idx → EReal) : Prop := ∀ i, ∃ r : ℝ, v i = (r : EReal)

/-- On arrays of real numbers the two forms are one function. -/
theorem outFolded_eq_outApart (x : ShX.Idx → EReal) (W : ShW.Idx → EReal) (b : Shb.Idx → EReal) (A : ShA.Idx → EReal) (B : ShB.Idx → EReal)
    (hx : AllReal x) (hW : AllReal W) (hb : AllReal b) (hA : AllReal A) (hB : AllReal B) :
    outFolded x W b A B = outApart x W b A B := by
  choose xr hxr using hx
  choose Wr hWr using hW
  choose br hbr using hb
  choose Ar hAr using hA
  choose Br hBr using hB
  funext y
  unfold outFolded outApart entryFolded entryApart folded lowRank
  simp only [hxr, hWr, hbr, hAr, hBr, scaling, ofBits_two]
  exact fold_entry (fun i => xr (ix2 (y 0) i)) (fun i => Wr (ix2 (y 1) i)) (fun i r => Br (ix2 i r)) (fun r => Ar (ix2 r (y 1)))
    (br (ix1 (y 1))) 2

end Cert.LoraFold

end
-- ==== Proof.KernelBlocks.lean ====
/-
  The kernel, one output entry at a time, at the exact instance.

  The grid is 8 × 4 × 4: row block ib of the activations, column block jb of the output, and kb, the quarter of the
  contraction; kb moves fastest, so point t has kb = t mod 4, jb = (t / 4) mod 4, ib = t / 16, and the four
  points t−3 … t with t ≡ 3 (mod 4) share ib and jb.  The host prefix hands the region the activations x, the
  folded weight F(i, j) = W(j, i) + 2·(B·A)(i, j) and the bias as a row.  Point s multiplies block (ib, kb) of x by
  block (kb, jb) of F; the running block starts at 0 + (that product) when kb = 0 and gains one product per
  point; the last point adds the bias row and stores the output block.  So entry (p, q) of the block stored at
  t is  ((((0 + d₀) + d₁) + d₂) + d₃) + b(col)  with  dₖ = Σₗ x(row, 1024k + l)·F(1024k + l, col), row = 1024·ib + p,
  col = 1024·jb + q: the four quarters of the sum over the whole contraction, that is the folded form's entry.
-/
import proofs.«125569_j13056700580108_1_alg».proof.Proof.Gen.KernelIdeal.Value
import proofs.«125569_j13056700580108_1_alg».proof.Proof.FoundPieces
import proofs.«125569_j13056700580108_1_alg».proof.Proof.LibMatmulPlain
import proofs.«125569_j13056700580108_1_alg».proof.Proof.TwoForms
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open scoped BigOperators
open Idealize.ShloMosaic Idealize.ShloMosaic.TcCoe Idealize.SL.Sem
open Idealize.ShloMosaic.Pipeline (Dat)

namespace Cert.KernelIdeal.Folded

open Cert.KernelIdeal Cert.KernelIdeal.Gen Cert.LoraFold Idealize.ShloMosaic.ValueIdx

variable (m : (ℓ : Loc nD τ sig) → Buf (Elt Ideal) ℓ) (ρ : Dev nD → PrngReg)

/-- The five arguments on core c, as arrays of extended reals. -/
abbrev argX (c : Dev nD) : S8192x4096.Idx → EReal := m ((c : Thread nD τ).loc main_arg0)
abbrev argW (c : Dev nD) : S4096x4096.Idx → EReal := m ((c : Thread nD τ).loc main_arg1)
abbrev argb (c : Dev nD) : S4096.Idx → EReal := m ((c : Thread nD τ).loc main_arg2)
abbrev argA (c : Dev nD) : S16x4096.Idx → EReal := m ((c : Thread nD τ).loc main_arg3)
abbrev argB (c : Dev nD) : S4096x16.Idx → EReal := m ((c : Thread nD τ).loc main_arg4)

/-! ## The body's three stored values at an entry -/

/-- The block the first point stores before accumulating is zero everywhere. -/
theorem zero_block (j : S1024x1024.Idx) : k0_pay1 (F := Ideal) j = 0 := by
  unfold k0_pay1
  simp only [shapeCast_self]
  exact ofBits_zero

theorem plain : Cert.Gcn.IsPlain (M := 1024) (K := 1024) (N := 1024) dot_S1024x1024_S1024x1024_S1024x1024_1_0_0_1_n_n :=
  ⟨rfl, rfl, rfl, rfl, rfl, rfl⟩

/-- One accumulation step at entry (p, q): the running value plus row p of x's block against column q of F's block. -/
theorem step_entry (acc : Vec Ideal S1024x1024 .f32) (x mm : Vec Ideal S1024x1024 .bf16) (p q : Fin 1024) :
    k0_pay2 (F := Ideal) acc x mm (ix2 p q) = acc (ix2 p q) + ∑ l : Fin 1024, x (ix2 p l) * mm (ix2 l q) := by
  unfold k0_pay2
  simp only [shapeCast_self]
  exact congrArg (acc (ix2 p q) + ·) (Cert.Gcn.matmul_plain_apply (M := 1024) (K := 1024) (N := 1024) dot_S1024x1024_S1024x1024_S1024x1024_1_0_0_1_n_n plain none x mm p q)

/-- The final store at entry (p, q): the running value plus the bias row's entry q. -/
theorem bias_entry (acc : Vec Ideal S1024x1024 .f32) (bias : Vec Ideal S1x1024 .f32) (p q : Fin 1024) :
    k0_pay3 (F := Ideal) acc bias (ix2 p q) = acc (ix2 p q) + bias (ix2 (0 : Fin 1) q) := by
  unfold k0_pay3
  simp only [shapeCast_self]
  refine congrArg (acc (ix2 p q) + ·) (broadcastTo_apply bias broadcasts_S1x1024_S1024x1024 (ix2 p q) (ix2 (0 : Fin 1) q) (fun a => ?_))
  match a with
  | ⟨0, _⟩ => rfl
  | ⟨1, _⟩ => rfl

/-! ## What the host prefix hands the region -/

/-- The first operand is x (the change of format is the identity here). -/
theorem x_arr (c : Dev nD) : (V m c main_v6 : S8192x4096.Idx → EReal) = m ((c : Thread nD τ).loc main_arg0) := by
  dsimp only [Gen.V, Gen.hostOps0]; after_results; rfl

/-- The third operand is the bias laid out as one row. -/
theorem b_arr (c : Dev nD) : (V m c main_v7 : S1x4096.Idx → EReal) = shapeCast S1x4096 (argb m c) shapeCasts_S4096_S1x4096 := by
  dsimp only [Gen.V, Gen.hostOps0]; after_results; rfl

/-- The second operand is the transposed base weight plus twice the low-rank product. -/
theorem m_arr (c : Dev nD) : (V m c main_v5 : S4096x4096.Idx → EReal)
    = addf (transpose S4096x4096 [1, 0] (argW m c) transposes_S4096x4096_S4096x4096_1_0)
        (mulf (broadcastInDim S4096x4096 ![] bcast_S_S4096x4096 (constant (F := Ideal) S_ .f32 0x40000000#32))
          (Host.dotGeneral (F := Ideal) (φ₁ := .f32) (φ₂ := .f32) dot_S4096x16_S16x4096_S4096x4096_1_0_0_1_n_n none (argB m c) (argA m c))) := by
  dsimp only [Gen.V, Gen.hostOps0]; after_results; rfl

theorem plainBA : Cert.Gcn.IsPlain (M := 4096) (K := 16) (N := 4096) dot_S4096x16_S16x4096_S4096x4096_1_0_0_1_n_n :=
  ⟨rfl, rfl, rfl, rfl, rfl, rfl⟩

/-- Entry (i, j) of the second operand is the folded weight F(i, j). -/
theorem m_entry (c : Dev nD) (i j : Fin 4096) :
    (V m c main_v5 : S4096x4096.Idx → EReal) (ix2 i j) = folded (argW m c) (argA m c) (argB m c) i j := by
  rw [m_arr]
  show transpose S4096x4096 [1, 0] (argW m c) transposes_S4096x4096_S4096x4096_1_0 (ix2 i j)
      + broadcastInDim S4096x4096 ![] bcast_S_S4096x4096 (constant (F := Ideal) S_ .f32 0x40000000#32) (ix2 i j)
        * Host.dotGeneral (F := Ideal) (φ₁ := .f32) (φ₂ := .f32) dot_S4096x16_S16x4096_S4096x4096_1_0_0_1_n_n none (argB m c) (argA m c) (ix2 i j) = _
  rw [transpose_apply [1, 0] _ transposes_S4096x4096_S4096x4096_1_0 (ix2 i j) (ix2 j i) (fun b => match b with | ⟨0, _⟩ => rfl | ⟨1, _⟩ => rfl),
    broadcastInDim_apply ![] bcast_S_S4096x4096 _ (ix2 i j) ix0 (fun a => a.elim0),
    Cert.Gcn.dotGeneral_plain_apply (M := 4096) (K := 16) (N := 4096) dot_S4096x16_S16x4096_S4096x4096_1_0_0_1_n_n plainBA none _ _ i j]
  rfl

/-! ## The index maps, decided over the grid -/

theorem idx_x : ∀ t : Fin cfg0.N, win0_0.index t (0 : Fin 2) = t.val / 16 ∧ win0_0.index t (1 : Fin 2) = t.val % 4 :=
  (by decide +kernel : ∀ t : Fin grid0.N, _)
theorem idx_m : ∀ t : Fin cfg0.N, win0_1.index t (0 : Fin 2) = t.val % 4 ∧ win0_1.index t (1 : Fin 2) = t.val / 4 % 4 :=
  (by decide +kernel : ∀ t : Fin grid0.N, _)
theorem idx_b : ∀ t : Fin cfg0.N, win0_2.index t (0 : Fin 2) = 0 ∧ win0_2.index t (1 : Fin 2) = t.val / 4 % 4 :=
  (by decide +kernel : ∀ t : Fin grid0.N, _)
theorem idx_o : ∀ t : Fin cfg0.N, win0_3.index t (0 : Fin 2) = t.val / 16 ∧ win0_3.index t (1 : Fin 2) = t.val / 4 % 4 :=
  (by decide +kernel : ∀ t : Fin grid0.N, _)

/-! ## The blocks a point reads, as entries of the arguments -/

/-- Row 1024·ib + p of an array with 8192 rows. -/
def rowAt (ib : ℕ) (hib : ib < 8) (p : Fin 1024) : Fin 8192 := ⟨1024 * ib + p.val, by omega⟩
/-- Position 1024·jb + q of an axis of length 4096. -/
def colAt (jb : ℕ) (hjb : jb < 4) (q : Fin 1024) : Fin 4096 := ⟨1024 * jb + q.val, by omega⟩

/-- The blocks of the three operands at point s, and the running block after it. -/
def xb (c : Dev nD) (s : Fin cfg0.N) : S1024x1024.Idx → EReal := iblk m c 0 s
def mb (c : Dev nD) (s : Fin cfg0.N) : S1024x1024.Idx → EReal := iblk m c 1 s
def bb (c : Dev nD) (s : Fin cfg0.N) : S1x1024.Idx → EReal := iblk m c 2 s
def acc (c : Dev nD) (s : Fin cfg0.N) : S1024x1024.Idx → EReal := (outsAt0 m c s.val s.isLt).2

theorem xb_apply (c : Dev nD) (s : Fin cfg0.N) (ib kb : ℕ) (hib : ib < 8) (hkb : kb < 4) (hi : s.val / 16 = ib) (hk : s.val % 4 = kb)
    (p l : Fin 1024) : xb m c s (ix2 p l) = (argX m c) (ix2 (rowAt ib hib p) (colAt kb hkb l)) := by
  obtain ⟨e0, e1⟩ := idx_x s
  show iblk m c 0 s (ix2 p l) = _
  unfold iblk
  rw [View.read_apply]
  show V m c main_v6 _ = _
  rw [x_arr]
  congr 1
  funext a; apply Fin.ext
  match a with
  | ⟨0, _⟩ => show win0_0.index s (0 : Fin 2) * 1024 + 1 * p.val = 1024 * ib + p.val; omega
  | ⟨1, _⟩ => show win0_0.index s (1 : Fin 2) * 1024 + 1 * l.val = 1024 * kb + l.val; omega

theorem mb_apply (c : Dev nD) (s : Fin cfg0.N) (kb jb : ℕ) (hkb : kb < 4) (hjb : jb < 4) (hk : s.val % 4 = kb) (hj : s.val / 4 % 4 = jb)
    (l q : Fin 1024) : mb m c s (ix2 l q) = folded (argW m c) (argA m c) (argB m c) (colAt kb hkb l) (colAt jb hjb q) := by
  obtain ⟨e0, e1⟩ := idx_m s
  rw [← m_entry m c]
  show iblk m c 1 s (ix2 l q) = _
  unfold iblk
  rw [View.read_apply]
  show V m c main_v5 _ = V m c main_v5 _
  congr 1
  funext a; apply Fin.ext
  match a with
  | ⟨0, _⟩ => show win0_1.index s (0 : Fin 2) * 1024 + 1 * l.val = 1024 * kb + l.val; omega
  | ⟨1, _⟩ => show win0_1.index s (1 : Fin 2) * 1024 + 1 * q.val = 1024 * jb + q.val; omega

theorem bb_apply (c : Dev nD) (s : Fin cfg0.N) (jb : ℕ) (hjb : jb < 4) (hj : s.val / 4 % 4 = jb) (q : Fin 1024) :
    bb m c s (ix2 (0 : Fin 1) q) = (argb m c) (ix1 (colAt jb hjb q)) := by
  obtain ⟨e0, e1⟩ := idx_b s
  show iblk m c 2 s (ix2 (0 : Fin 1) q) = _
  unfold iblk
  rw [View.read_apply]
  show V m c main_v7 _ = _
  rw [b_arr]
  refine shapeCast_apply _ shapeCasts_S4096_S1x4096 _ (ix1 (colAt jb hjb q)) ?_
  rw [Shape.rowMajor_val_one, Shape.rowMajor_val_two]
  show 1024 * jb + q.val = (win0_2.index s (0 : Fin 2) * 1 + 1 * 0) * 4096 + (win0_2.index s (1 : Fin 2) * 1024 + 1 * q.val)
  omega

/-! ## The running block over the four points of one output block -/

theorem acc_first (c : Dev nD) (s : Fin cfg0.N) (h0 : s.val % 4 = 0) :
    acc m c s = k0_pay2 (F := Ideal) (k0_pay1 (F := Ideal)) (xb m c s) (mb m c s) := by
  have h1 : ¬s.val % 4 = 3 := by omega
  show (outsAt0 m c s.val s.isLt).2 = _
  rw [outsAt0_A m c s h0 h1]
  dsimp only
  exact Found.scratch_first (F := Ideal) c (grid0.coords s) (ms0_0 s) (hs0_0 s) (ms0_1 s) (hs0_1 s) (ms0_2 s) (hs0_2 s) (ms0_3 s) (hs0_3 s) scM0_0 (Memref.isWhole_whole _) ((hcond0_0 s).mpr h0) (fun h => h1 ((hcond0_1 s).mp h)) (iblk m c 0 s) (iblk m c 1 s) (iblk m c 2 s)

theorem acc_mid (c : Dev nD) (s s' : Fin cfg0.N) (hs : s'.val = s.val - 1) (h0 : ¬s.val % 4 = 0) (h1 : ¬s.val % 4 = 3) :
    acc m c s = k0_pay2 (F := Ideal) (acc m c s') (xb m c s) (mb m c s) := by
  obtain ⟨n', hn'⟩ := s'
  dsimp only at hs
  subst hs
  show (outsAt0 m c s.val s.isLt).2 = _
  rw [outsAt0_B m c s h0 h1]
  dsimp only
  exact Found.scratch_mid (F := Ideal) c (grid0.coords s) (ms0_0 s) (hs0_0 s) (ms0_1 s) (hs0_1 s) (ms0_2 s) (hs0_2 s) (ms0_3 s) (hs0_3 s) scM0_0 (Memref.isWhole_whole _) (fun h => h0 ((hcond0_0 s).mp h)) (fun h => h1 ((hcond0_1 s).mp h)) (iblk m c 0 s) (iblk m c 1 s) (iblk m c 2 s) (outsAt0 m c (s.val - 1) hn').2

theorem out_last (c : Dev nD) (s s' : Fin cfg0.N) (hs : s'.val = s.val - 1) (h0 : ¬s.val % 4 = 0) (h1 : s.val % 4 = 3) :
    (outsAt0 m c s.val s.isLt).1 = k0_pay3 (F := Ideal) (k0_pay2 (F := Ideal) (acc m c s') (xb m c s) (mb m c s)) (bb m c s) := by
  obtain ⟨n', hn'⟩ := s'
  dsimp only at hs
  subst hs
  rw [outsAt0_C m c s h0 h1]
  dsimp only
  exact Found.out_last (F := Ideal) c (grid0.coords s) (ms0_0 s) (hs0_0 s) (ms0_1 s) (hs0_1 s) (ms0_2 s) (hs0_2 s) (ms0_3 s) (hs0_3 s) scM0_0 (Memref.isWhole_whole _) (fun h => h0 ((hcond0_0 s).mp h)) ((hcond0_1 s).mpr h1) (iblk m c 0 s) (iblk m c 1 s) (iblk m c 2 s) (outsAt0 m c (s.val - 1) hn').2

end Cert.KernelIdeal.Folded

end
-- ==== Proof.KernelArray.lean ====
/-
  From the four quarters to the whole sum, and from the output's blocks to the output array.

  At the last of the four points of an output block the stored entry is  ((((0 + d₀) + d₁) + d₂) + d₃) + b(col),
  dₖ the k-th quarter of  Σᵢ x(row, i)·F(i, col): the folded form's entry at (row, col).  The output's 8 × 4 blocks
  of 1024 × 1024 tile the 8192 × 4096 array, each written back once, at the last of its four points; entry (r, c)
  lies in the block of point  ((r / 1024)·4 + c / 1024)·4 + 3.  So the array ends as the folded form.
-/
import proofs.«125569_j13056700580108_1_alg».proof.Proof.KernelBlocks

set_option maxRecDepth 16384

noncomputable section

open scoped BigOperators
open Idealize.ShloMosaic Idealize.ShloMosaic.TcCoe Idealize.SL.Sem
open Idealize.ShloMosaic.Pipeline (Dat)

namespace Cert.KernelIdeal.Folded

open Cert.KernelIdeal Cert.KernelIdeal.Gen Cert.LoraFold Idealize.ShloMosaic.ValueIdx

variable (m : (ℓ : Loc nD τ sig) → Buf (Elt Ideal) ℓ) (ρ : Dev nD → PrngReg)

/-- One quarter of the contraction at point s: row p of x's block against column q of F's block is the quarter kb
    of the whole sum's terms. -/
theorem quarter (c : Dev nD) (s : Fin cfg0.N) (ib kb jb : ℕ) (hib : ib < 8) (hkb : kb < 4) (hjb : jb < 4)
    (hi : s.val / 16 = ib) (hk : s.val % 4 = kb) (hj : s.val / 4 % 4 = jb) (p q : Fin 1024) :
    ∑ l : Fin 1024, xb m c s (ix2 p l) * mb m c s (ix2 l q)
      = ∑ l : Fin 1024, (fun i : Fin 4096 => argX m c (ix2 (rowAt ib hib p) i) * folded (argW m c) (argA m c) (argB m c) i (colAt jb hjb q))
          ⟨1024 * kb + l.val, by omega⟩ :=
  Finset.sum_congr rfl fun l _ => by
    rw [xb_apply m c s ib kb hib hkb hi hk p l, mb_apply m c s kb jb hkb hjb hk hj l q]; rfl

/-- Entry (p, q) of the block stored at the last of four points is the folded form's entry at (row, col). -/
theorem out_entry (c : Dev nD) (t : Fin cfg0.N) (h3 : t.val % 4 = 3) (ib jb : ℕ) (hib : ib < 8) (hjb : jb < 4)
    (hi : t.val / 16 = ib) (hj : t.val / 4 % 4 = jb) (p q : Fin 1024) :
    (outsAt0 m c t.val t.isLt).1 (ix2 p q) = entryFolded (argX m c) (argW m c) (argb m c) (argA m c) (argB m c) (rowAt ib hib p) (colAt jb hjb q) := by
  have hNe : cfg0.N = 128 := N_0
  have hN : t.val < 128 := lt_of_lt_of_eq t.isLt hNe
  obtain ⟨t1, ht1⟩ : ∃ t1 : Fin cfg0.N, t1.val = t.val - 1 := ⟨⟨t.val - 1, lt_of_lt_of_eq (by omega : t.val - 1 < 128) hNe.symm⟩, rfl⟩
  obtain ⟨t2, ht2⟩ : ∃ t2 : Fin cfg0.N, t2.val = t1.val - 1 := ⟨⟨t1.val - 1, lt_of_lt_of_eq (by omega : t1.val - 1 < 128) hNe.symm⟩, rfl⟩
  obtain ⟨t3, ht3⟩ : ∃ t3 : Fin cfg0.N, t3.val = t2.val - 1 := ⟨⟨t2.val - 1, lt_of_lt_of_eq (by omega : t2.val - 1 < 128) hNe.symm⟩, rfl⟩
  rw [out_last m c t t1 ht1 (by omega) h3, bias_entry, step_entry,
    acc_mid m c t1 t2 ht2 (by omega) (by omega), step_entry,
    acc_mid m c t2 t3 ht3 (by omega) (by omega), step_entry,
    acc_first m c t3 (by omega), step_entry, zero_block,
    bb_apply m c t jb hjb hj q,
    quarter m c t3 ib 0 jb hib (by omega) hjb (by omega) (by omega) (by omega) p q,
    quarter m c t2 ib 1 jb hib (by omega) hjb (by omega) (by omega) (by omega) p q,
    quarter m c t1 ib 2 jb hib (by omega) hjb (by omega) (by omega) (by omega) p q,
    quarter m c t ib 3 jb hib (by omega) hjb hi h3 hj p q]
  exact congrArg (· + argb m c (ix1 (colAt jb hjb q)))
    (sum_four_stretches (fun i : Fin 4096 => argX m c (ix2 (rowAt ib hib p) i) * folded (argW m c) (argA m c) (argB m c) i (colAt jb hjb q)))

/-- What a writing point writes back is its block of the folded form. -/
theorem flushed_eq (c : Dev nD) (t : Fin cfg0.N) (hf : (cfg0.win 3).flush t = true) :
    (dats m 0 c).flushed 3 t = ((cfg0.win 3).blk t).view.read (Elt Ideal) (outFolded (argX m c) (argW m c) (argb m c) (argA m c) (argB m c)) := by
  have h3 : t.val % 4 = 3 := (flush0_3 t).mp hf
  have hN : t.val < 128 := lt_of_lt_of_eq t.isLt (show cfg0.N = 128 from N_0)
  obtain ⟨e0, e1⟩ := idx_o t
  rw [Cert.KernelIdeal.Value.flushed3]
  funext j
  obtain ⟨p, q, rfl⟩ : ∃ (p q : Fin 1024), j = ix2 p q := ⟨j 0, j 1, eq_ix2 j⟩
  show (outsAt0 m c t.val t.isLt).1 (ix2 p q) = outFolded (argX m c) (argW m c) (argb m c) (argA m c) (argB m c) (((cfg0.win 3).blk t).view.emb (ix2 p q))
  refine (out_entry m c t h3 (t.val / 16) (t.val / 4 % 4) (by omega) (by omega) rfl rfl p q).trans ?_
  show entryFolded _ _ _ _ _ _ _ = entryFolded _ _ _ _ _ (((cfg0.win 3).blk t).view.emb (ix2 p q) 0) (((cfg0.win 3).blk t).view.emb (ix2 p q) 1)
  congr 1
  · apply Fin.ext; show 1024 * (t.val / 16) + p.val = win0_3.index t (0 : Fin 2) * 1024 + 1 * p.val; omega
  · apply Fin.ext; show 1024 * (t.val / 4 % 4) + q.val = win0_3.index t (1 : Fin 2) * 1024 + 1 * q.val; omega

/-- Every block of the output is some writing point's. -/
theorem onto : ∀ (q0 : Fin 8) (q1 : Fin 4), ∃ t : Fin cfg0.N, (cfg0.win 3).flush t = true
    ∧ win0_3.index t (0 : Fin 2) = q0.val ∧ win0_3.index t (1 : Fin 2) = q1.val :=
  (by decide +kernel : ∀ (q0 : Fin 8) (q1 : Fin 4), ∃ t : Fin grid0.N, win0_3.flush t = true
    ∧ win0_3.index t (0 : Fin 2) = q0.val ∧ win0_3.index t (1 : Fin 2) = q1.val)

/-- An index of the output is in point t's block iff each coordinate is in the block's range. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v8).slice (win0_3.rect t)).set ↔ _
  rw [View.set_slice_whole, Rect.mem_set_unit]
  exact Iff.rfl

/-- Every entry of the output lies in the block of a writing point. -/
theorem cover (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, hf, q0, q1⟩ := onto ⟨(i 0).val / 1024, by omega⟩ ⟨(i 1).val / 1024, by omega⟩
  have q0' : win0_3.index t (0 : Fin 2) = (i 0).val / 1024 := q0
  have q1' : win0_3.index t (1 : Fin 2) = (i 1).val / 1024 := q1
  refine ⟨t, hf, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 1024 ≤ (i 1).val ∧ (i 1).val < win0_3.index t (1 : Fin 2) * 1024 + 1024; omega

/-- The output array after the run is the folded form of the arguments. -/
theorem final (c : Dev nD) : (dats m 0 c).arrAt 3 cfg0.N = outFolded (argX m c) (argW m c) (argb m c) (argA m c) (argB m c) :=
  (dats m 0 c).arrAt_eq_of_cover 3 (outFolded (argX m c) (argW m c) (argb m c) (argA m c) (argB m c)) (flushed_eq m c) cover

/-- The kernel's run, read: every weakly fair execution ends with the result array at the folded form of the
    arguments, the arguments unchanged. -/
theorem run : θ_run defs (onTc (τ := τ) (main (F := Ideal))) ⟨m, fun _ => 0, ρ⟩ fun r => ∀ c : Dev nD,
      r.2.mem ((c : Thread nD τ).loc main_v8) = outFolded (argX m c) (argW m c) (argb m c) (argA m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Folded

end
-- ==== Proof.ReferenceApart.lean ====
/-
  The reference, read one entry at a time: its result array is the form that keeps the two products apart,
  out(t, j) = (Σᵢ x(t, i)·W(j, i) + b(j)) + 2·Σᵢ x(t, i)·(B·A)(i, j).  The transpose reads W at the swapped pair,
  each product is the sum over its one contracted coordinate, the bias is broadcast along the rows and the
  scaling to every entry.
-/
import proofs.«125569_j13056700580108_1_alg».proof.Proof.Gen.ReferenceIdeal.Read
import proofs.«125569_j13056700580108_1_alg».proof.Proof.TwoForms

noncomputable section

open scoped BigOperators

namespace Cert.ReferenceIdeal.Apart

open Cert.ReferenceIdeal Cert.ReferenceIdeal.Read Cert.LoraFold Idealize.ShloMosaic Idealize.ShloMosaic.ValueIdx

theorem base_lhs (t : Fin 8192) (j : Fin 4096) (k : Fin 4096) : lidx_main_v1 (ix2 t j) k = ix2 t k :=
  funext fun a => match a with | ⟨0, _⟩ => rfl | ⟨1, _⟩ => rfl
theorem base_rhs (t : Fin 8192) (j : Fin 4096) (k : Fin 4096) : idx_main_v0 (ridx_main_v1 (ix2 t j) k) = ix2 j k :=
  funext fun a => match a with | ⟨0, _⟩ => rfl | ⟨1, _⟩ => rfl
theorem bias_idx (t : Fin 8192) (j : Fin 4096) : idx_main_v2 (idx_main_v3 (ix2 t j)) = ix1 j :=
  funext fun a => match a with | ⟨0, _⟩ => rfl
theorem low_lhs (t : Fin 8192) (j : Fin 4096) (k : Fin 4096) : lidx_main_v6 (ix2 t j) k = ix2 t k :=
  funext fun a => match a with | ⟨0, _⟩ => rfl | ⟨1, _⟩ => rfl
theorem inner_lhs (t : Fin 8192) (j : Fin 4096) (k : Fin 4096) (r : Fin 16) : lidx_main_v5 (ridx_main_v6 (ix2 t j) k) r = ix2 k r :=
  funext fun a => match a with | ⟨0, _⟩ => rfl | ⟨1, _⟩ => rfl
theorem inner_rhs (t : Fin 8192) (j : Fin 4096) (k : Fin 4096) (r : Fin 16) : ridx_main_v5 (ridx_main_v6 (ix2 t j) k) r = ix2 r j :=
  funext fun a => match a with | ⟨0, _⟩ => rfl | ⟨1, _⟩ => rfl

/-- The reference's last stage is the form with the two products apart. -/
theorem result_eq (x0 : S8192x4096.Idx → EReal) (x1 : S4096x4096.Idx → EReal) (x2 : S4096.Idx → EReal) (x3 : S16x4096.Idx → EReal) (x4 : S4096x16.Idx → EReal) :
    val_main_v9 (F := Ideal) x0 x1 x2 x3 x4 = outApart x0 x1 x2 x3 x4 := by
  funext y
  obtain ⟨t, j, rfl⟩ : ∃ (t : Fin 8192) (j : Fin 4096), y = ix2 t j := ⟨y 0, y 1, eq_ix2 y⟩
  rw [val_main_v9_apply, val_main_v4_apply, val_main_v1_apply, val_main_v3_apply, val_main_v2_apply, val_main_v8_apply,
    val_main_v7_apply, val_main_cst_apply, val_main_v6_apply]
  simp only [val_main_v0_apply, val_main_v5_apply, base_lhs, base_rhs, bias_idx, low_lhs, inner_lhs, inner_rhs]
  rfl

end Cert.ReferenceIdeal.Apart

end
-- ==== Proof.FiniteInputs.lean ====
/-
  The precondition, read: it is the conjunction, over the five arguments, of "every entry has absolute value below
  +∞".  An extended real whose absolute value  max x (−x)  is below +∞ is neither infinity, hence a real number; a
  conjunction over all entries that holds gives the fact at each entry.
-/
import proofs.«125569_j13056700580108_1_alg».proof.Pre_finite_inputs
import proofs.«125569_j13056700580108_1_alg».proof.Proof.TwoForms
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Decode

open Cert.Pre_finite_inputs Cert.LoraFold Idealize.ShloMosaic Idealize.ShloMosaic.ValueIdx

instance : Subsingleton S_.Idx := ⟨fun a b => funext fun d => d.elim0⟩

/-- An extended real whose absolute value is below +∞ is a real number. -/
theorem real_of_abs_lt_top (x : EReal) (h : Ideal.cmp .olt (max x (-x)) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- `jnp.all(|v| < inf)` says every entry of v is a real number. -/
theorem allReal_of_all {S : Shape} {axes : List (Fin S.rank)} (v : S.Idx → EReal) (bc : S_.BroadcastsInDim S (![] : Fin 0 → Fin S.rank))
    (rt : S.ReducesTo axes S_) (hS : 0 < S_.numel)
    (e : Host.reduce IntOp.andi (cmpf .olt (Host.absf (F := Ideal) (φ := .f32) v) (broadcastInDim S ![] bc (constant (F := Ideal) S_ .f32 0x7F800000#32))) (constantI S_ 1 1#1) rt hS ix0 = 1#1) :
    AllReal v := by
  intro i
  have h := Host.reduce_andi_all _ _ rt hS ix0 e i
  rw [cmpf_apply, broadcastInDim_apply ![] bc _ i ix0 (fun a => a.elim0)] at h
  exact real_of_abs_lt_top (v i) h

variable [Facts]

theorem allReal_of_pre (x : S8192x4096.Idx → EReal) (W : S4096x4096.Idx → EReal) (b : S4096.Idx → EReal) (A : S16x4096.Idx → EReal) (B : S4096x16.Idx → EReal)
    (h : fn (F := Ideal) x W b A B = fun _ => 1#1) : AllReal x ∧ AllReal W ∧ AllReal b ∧ AllReal A ∧ AllReal B := by
  have h0 := congrFun h ix0
  dsimp only [fn, fn_part1] at h0
  obtain ⟨h1, hB⟩ := IntOp.andi_eq_one.1 (show IntOp.andi _ _ = 1#1 from h0)
  obtain ⟨h2, hA⟩ := IntOp.andi_eq_one.1 (show IntOp.andi _ _ = 1#1 from h1)
  obtain ⟨h3, hb⟩ := IntOp.andi_eq_one.1 (show IntOp.andi _ _ = 1#1 from h2)
  obtain ⟨hx, hW⟩ := IntOp.andi_eq_one.1 (show IntOp.andi _ _ = 1#1 from h3)
  exact ⟨allReal_of_all x _ _ _ hx, allReal_of_all W _ _ _ hW, allReal_of_all b _ _ _ hb, allReal_of_all A _ _ _ hA,
    allReal_of_all B _ _ _ hB⟩

end Cert.Pre_finite_inputs.Decode

end
-- ==== Proof.lean ====
/-
  A linear layer with a low-rank update, computed two ways, is one function over the reals.

  Arguments: activations x [8192, 4096], base weight W [4096, 4096], bias b [4096], low-rank factors A [16, 4096] and
  B [4096, 16]; scaling 2.  The reference returns  (x·Wᵀ + b) + 2·(x·(B·A)).  The kernel folds the weights on the host,
  F = Wᵀ + 2·(B·A), and a tiled product accumulates  x·F  over four quarters of the contraction per output block, adding
  b at the last quarter.  Over the extended reals the four quarters added in order to a zero start are the whole sum
  (a commutative monoid suffices), and  Σᵢ xᵢ·(wᵢ + 2·cᵢ) + β = (Σᵢ xᵢ·wᵢ + β) + 2·Σᵢ xᵢ·cᵢ  is distributivity, which
  needs every entry to be a real number: that is what the precondition gives.

  The three frames: the two kernel programs run by their generated frame certificates; the reference's frame is its
  generated run with the result dropped.  The idealization rewrote nothing.  For the value claim the kernel's run is
  read block by block into the folded form of the arguments (KernelBlocks, KernelArray over FoundPieces), the
  reference's stage is the form with the two products apart (ReferenceApart), the inputs are real by the precondition
  (FiniteInputs), and on real inputs the two forms agree (TwoForms over FoldAlgebra).
-/
import proofs.«125569_j13056700580108_1_alg».proof.Defs
import proofs.«125569_j13056700580108_1_alg».proof.Proof.Gen.Kernel
import proofs.«125569_j13056700580108_1_alg».proof.Proof.Gen.Kernel.Skeleton
import proofs.«125569_j13056700580108_1_alg».proof.Proof.Gen.Kernel.Launch
import proofs.«125569_j13056700580108_1_alg».proof.Proof.Gen.Kernel.Points
import proofs.«125569_j13056700580108_1_alg».proof.Proof.Gen.Kernel.Frame
import proofs.«125569_j13056700580108_1_alg».proof.Proof.Gen.KernelIdeal
import proofs.«125569_j13056700580108_1_alg».proof.Proof.Gen.KernelIdeal.Skeleton
import proofs.«125569_j13056700580108_1_alg».proof.Proof.Gen.KernelIdeal.Launch
import proofs.«125569_j13056700580108_1_alg».proof.Proof.Gen.KernelIdeal.Points
import proofs.«125569_j13056700580108_1_alg».proof.Proof.Gen.KernelIdeal.Frame
import proofs.«125569_j13056700580108_1_alg».proof.Proof.Gen.ReferenceIdeal
import proofs.«125569_j13056700580108_1_alg».proof.Proof.Gen.KernelIdeal.Value
import proofs.«125569_j13056700580108_1_alg».proof.Proof.Gen.ReferenceIdeal.Run
import proofs.«125569_j13056700580108_1_alg».proof.Proof.Gen.ReferenceIdeal.Read
import proofs.«125569_j13056700580108_1_alg».proof.Proof.Gen.Pre_finite_inputs
import proofs.«125569_j13056700580108_1_alg».proof.Proof.KernelArray
import proofs.«125569_j13056700580108_1_alg».proof.Proof.ReferenceApart
import proofs.«125569_j13056700580108_1_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the five arguments, all of them real by the precondition, the kernel ends at the
    folded form of the arguments and the reference at the form with the two products apart: one array. -/
theorem algebraic : Cert.algebraic_KernelIdeal_ReferenceIdeal := by
  intro m ρ m' ρ' hpre hagree
  refine ⟨fun c => Cert.LoraFold.outFolded (Cert.KernelIdeal.Folded.argX m c) (Cert.KernelIdeal.Folded.argW m c)
    (Cert.KernelIdeal.Folded.argb m c) (Cert.KernelIdeal.Folded.argA m c) (Cert.KernelIdeal.Folded.argB m c),
    Cert.KernelIdeal.Folded.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v9_eq, Cert.ReferenceIdeal.Apart.result_eq]
  obtain ⟨hx, hW, hb, hA, hB⟩ := Cert.Pre_finite_inputs.Decode.allReal_of_pre _ _ _ _ _ (hpre c)
  exact (Cert.LoraFold.outFolded_eq_outApart _ _ _ _ _ hx hW hb hA hB).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
